-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x8192x1024 .f32) (main_arg1 : FVec F S8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x8192x1024 : Shape := ⟨3, ![4, 8192, 1024]⟩
abbrev S8192x1024 : Shape := ⟨2, ![8192, 1024]⟩
abbrev S4x768x1024 : Shape := ⟨3, ![4, 768, 1024]⟩
abbrev S768x1024 : Shape := ⟨2, ![768, 1024]⟩
abbrev S4x768 : Shape := ⟨2, ![4, 768]⟩
abbrev S4x768x1 : Shape := ⟨3, ![4, 768, 1]⟩
abbrev S1x768x1024 : Shape := ⟨3, ![1, 768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S4x768x1024, .f32⟩
  | .local _ .vmem, ⟨1, _⟩ => ⟨S4x768x1024, .f32⟩
  | .local _ .vmem, ⟨2, _⟩ => ⟨S768x1024, .f32⟩
  | .local _ .vmem, ⟨3, _⟩ => ⟨S768x1024, .f32⟩
  | .local _ .vmem, ⟨4, _⟩ => ⟨S4x768x1024, .f32⟩
  | .local _ .vmem, ⟨5, _⟩ => ⟨S4x768x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x768x1024_S4x768x1024_0_0_0 : ∀ a, (![0, 0, 0] : Fin 3 → Nat) a + S4x768x1024.size a ≤ S4x768x1024.size a
  h_S4x768x1024 : 0 < S4x768x1024.numel
  reduces_S4x768x1024_S4x768 : S4x768x1024.Reduces [2] S4x768
  shapeCasts_S4x768_S4x768x1 : S4x768.ShapeCasts S4x768x1
  broadcasts_S4x768x1_S4x768x1024 : S4x768x1.Broadcasts S4x768x1024
  inb_S768x1024_S768x1024_0_0 : ∀ a, (![0, 0] : Fin 2 → Nat) a + S768x1024.size a ≤ S768x1024.size a
  h_S768x1024 : 0 < S768x1024.numel
  shapeCasts_S768x1024_S1x768x1024 : S768x1024.ShapeCasts S1x768x1024
  broadcasts_S1x768x1024_S4x768x1024 : S1x768x1024.Broadcasts S4x768x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x768x1024.size a < S4x8192x1024.size a
  hwx0_0 : ∀ i : grid0.Coords, EltTy.bits .f32 = 32 ∨ (Rect.unit (s := S4x8192x1024) (fun a => cc0_transform_0 i a * S4x768x1024.size a) (fun a => (Pipeline.Clip.of (cc0_transform_0 i a) (S4x768x1024.size a) (S4x8192x1024.size a)).extent (S4x768x1024.size a)) fun a => Pipeline.Clip.inb (Pipeline.Clip.ok_of (hstart0_0 i a))).WholeWords (EltTy.packing .f32)
  hwxs0_0 : ∀ i : grid0.Coords, EltTy.bits .f32 = 32 ∨ (Rect.unit (s := S4x768x1024) (fun _ => 0) (fun a => (Pipeline.Clip.of (cc0_transform_0 i a) (S4x768x1024.size a) (S4x8192x1024.size a)).extent (S4x768x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S768x1024.size a < S8192x1024.size a
  hwx0_1 : ∀ i : grid0.Coords, EltTy.bits .f32 = 32 ∨ (Rect.unit (s := S8192x1024) (fun a => cc0_transform_1 i a * S768x1024.size a) (fun a => (Pipeline.Clip.of (cc0_transform_1 i a) (S768x1024.size a) (S8192x1024.size a)).extent (S768x1024.size a)) fun a => Pipeline.Clip.inb (Pipeline.Clip.ok_of (hstart0_1 i a))).WholeWords (EltTy.packing .f32)
  hwxs0_1 : ∀ i : grid0.Coords, EltTy.bits .f32 = 32 ∨ (Rect.unit (s := S768x1024) (fun _ => 0) (fun a => (Pipeline.Clip.of (cc0_transform_1 i a) (S768x1024.size a) (S8192x1024.size a)).extent (S768x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4x768x1024.size a < S4x8192x1024.size a
  hwx0_2 : ∀ i : grid0.Coords, EltTy.bits .f32 = 32 ∨ (Rect.unit (s := S4x8192x1024) (fun a => cc0_transform_2 i a * S4x768x1024.size a) (fun a => (Pipeline.Clip.of (cc0_transform_2 i a) (S4x768x1024.size a) (S4x8192x1024.size a)).extent (S4x768x1024.size a)) fun a => Pipeline.Clip.inb (Pipeline.Clip.ok_of (hstart0_2 i a))).WholeWords (EltTy.packing .f32)
  hwxs0_2 : ∀ i : grid0.Coords, EltTy.bits .f32 = 32 ∨ (Rect.unit (s := S4x768x1024) (fun _ => 0) (fun a => (Pipeline.Clip.of (cc0_transform_2 i a) (S4x768x1024.size a) (S4x8192x1024.size a)).extent (S4x768x1024.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S4x768x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S768x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S4x768x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩
abbrev S4x8192 : Shape := ⟨2, ![4, 8192]⟩
abbrev S4x8192x1 : Shape := ⟨3, ![4, 8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1_S1x1x1_2 : S1.BroadcastsInDim S1x1x1 (![2] : Fin 1 → Fin S1x1x1.rank)
  bcast_S1x1x1_S1x8192x1_0_1_2 : S1x1x1.BroadcastsInDim S1x8192x1 (![0, 1, 2] : Fin 3 → Fin S1x8192x1.rank)
  reducesTo_S1x8192x1_S1x8192_d2 : S1x8192x1.ReducesTo [2] S1x8192
  h_S_ : 0 < S_.numel
  bcast_S1x8192_S1x8192x1024_0_1 : S1x8192.BroadcastsInDim S1x8192x1024 (![0, 1] : Fin 2 → Fin S1x8192x1024.rank)
  bcast_S_S1x8192x1024 : S_.BroadcastsInDim S1x8192x1024 (![] : Fin 0 → Fin S1x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1x8192x1024_S4x8192x1024_0_1_2 : S1x8192x1024.BroadcastsInDim S4x8192x1024 (![0, 1, 2] : Fin 3 → Fin S4x8192x1024.rank)
  gather_S8192x1024_S1x8192x1_S1x8192x1024_2_0_n_n_0_2_11024_wf : GatherDims.WF S8192x1024 S1x8192x1 S1x8192x1024 [2] [0] [] [0] [] 2 ![1, 1024]

variable [Facts₀]

def gather_S8192x1024_S1x8192x1_S1x8192x1024_2_0_n_n_0_2_11024 : GatherDims S8192x1024 S1x8192x1 S1x8192x1024 where
  offsetDims := [2]
  collapsedSliceDims := [0]
  operandBatchingDims := []
  startIndicesBatchingDims := []
  startIndexMap := [0]
  indexVectorDim := 2
  sliceSizes := ![1, 1024]
  wf := gather_S8192x1024_S1x8192x1_S1x8192x1024_2_0_n_n_0_2_11024_wf

class Facts : Prop extends Facts₀ where

variable [Facts]
-- ==== Proof.KBody.lean ====
/-
  The kernel body's triple and the program's frame.

  The body of the one pallas_call reads its two input staging buffers whole, reads the result's staging buffer
  whole (a value nothing uses), and stores into the result's staging buffer, whole, the layer-normalised rows of
  the first plus the positional rows of the second (the generated payload `Gen.k0_pay1`). `sound_body` states
  that as a triple at any of the two staging buffers each window may be on.

  All three windows' blocks are cut at the arrays' end at the last grid point, so what a staging buffer holds past
  the array's rows is a word nothing names. The frame (the program terminates, nothing faults, the two argument
  arrays end as they began) needs none of it: the proof data constrain what the body leaves by the relation that
  holds of everything, the body obligation is `sound_body` with the contents forgotten, and the library's frame
  run concludes that an input window's array, never written, holds its entry contents.
-/
import proofs.«113201_g14345190768845_cont_week2b_405_11_alg».proof.Proof.Gen.Kernel.Frame
import proofs.«113201_g14345190768845_cont_week2b_405_11_alg».proof.Proof.Gen.Kernel.Skeleton
import Idealize.ShloMosaic.Lib.Pipeline.Kit
import Idealize.ShloMosaic.Lib.Pipeline.Frame
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-- The kernel's variants: none. -/
abbrev 𝒱₀ : Variants := Variants.none

/-! ## The accesses are whole-buffer accesses

Each access of the body is at offset zero on every axis and of the buffer's own sizes: a load reads the buffer's
contents, an unmasked store replaces them. Stated once per staging buffer. -/

theorem off3 : (![0, 0, 0] : Fin 3 → Nat) = fun _ => 0 := funext fun a => by fin_cases a <;> rfl
theorem off2 : (![0, 0] : Fin 2 → Nat) = fun _ => 0 := funext fun a => by fin_cases a <;> rfl

theorem read0_0 (f : cc0_stg0_0.ty.Contents (Elt F)) :
    (Memref.whole cc0_stg0_0 : Memref sig .tc _ _ _).view.readAt (Elt F) (Rect.unit (s := S4x768x1024) ![0, 0, 0] S4x768x1024.size
      inb_S4x768x1024_S4x768x1024_0_0_0).toLoadRect f = f := Memref.readAt_unit_zero (Elt F) cc0_stg0_0 off3 _ f
theorem read0_1 (f : cc0_stg0_1.ty.Contents (Elt F)) :
    (Memref.whole cc0_stg0_1 : Memref sig .tc _ _ _).view.readAt (Elt F) (Rect.unit (s := S4x768x1024) ![0, 0, 0] S4x768x1024.size
      inb_S4x768x1024_S4x768x1024_0_0_0).toLoadRect f = f := Memref.readAt_unit_zero (Elt F) cc0_stg0_1 off3 _ f
theorem read1_0 (f : cc0_stg1_0.ty.Contents (Elt F)) :
    (Memref.whole cc0_stg1_0 : Memref sig .tc _ _ _).view.readAt (Elt F) (Rect.unit (s := S768x1024) ![0, 0] S768x1024.size
      inb_S768x1024_S768x1024_0_0).toLoadRect f = f := Memref.readAt_unit_zero (Elt F) cc0_stg1_0 off2 _ f
theorem read1_1 (f : cc0_stg1_1.ty.Contents (Elt F)) :
    (Memref.whole cc0_stg1_1 : Memref sig .tc _ _ _).view.readAt (Elt F) (Rect.unit (s := S768x1024) ![0, 0] S768x1024.size
      inb_S768x1024_S768x1024_0_0).toLoadRect f = f := Memref.readAt_unit_zero (Elt F) cc0_stg1_1 off2 _ f
theorem write2_0 (f w : cc0_stg2_0.ty.Contents (Elt F)) :
    (((Memref.whole cc0_stg2_0).access (Rect.unit (s := S4x768x1024) ![0, 0, 0] S4x768x1024.size inb_S4x768x1024_S4x768x1024_0_0_0)) :
      View sig .tc _ _ _).write (Elt F) f w Finset.univ = w := Memref.write_access_unit_zero_univ (Elt F) cc0_stg2_0 off3 _ f w
theorem write2_1 (f w : cc0_stg2_1.ty.Contents (Elt F)) :
    (((Memref.whole cc0_stg2_1).access (Rect.unit (s := S4x768x1024) ![0, 0, 0] S4x768x1024.size inb_S4x768x1024_S4x768x1024_0_0_0)) :
      View sig .tc _ _ _).write (Elt F) f w Finset.univ = w := Memref.write_access_unit_zero_univ (Elt F) cc0_stg2_1 off3 _ f w

/-! ## The kernel body's triple -/

set_option hygiene false in
/-- One case of the triple below, at the three named staging buffers (the two read equations and the write
    equation of those buffers are the arguments): the buffers' points-tos spelled out, the four memory operations
    run, the continuation entered at what the buffers then hold. -/
local macro "body_case " r0:ident r1:ident w2:ident : tactic => `(tactic| (
    simp only [owns_whole_eq, cc0__ln_add_block_eq_skeleton]; unfold cc0__ln_add_block_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [$r0:ident, $r1:ident, $w2:ident]
    isplitl [H0]
    · iexists f0; isplitr; · ipureintro; exact hf0
      iexact H0
    isplitl [H1]
    · iexists f1; isplitr; · ipureintro; exact hf1
      iexact H1
    · iexists Gen.k0_pay1 f0 f1; isplitr; · ipureintro; rw [hf0, hf1]
      iexact H2))

/-- The kernel body on staging buffers `s0`, `s1`, `s2` of the three windows (each 0 or 1 by the point): the whole
    loads of the two inputs' buffers, a whole load of the result's buffer that nothing uses, the whole store of the
    payload. The inputs' buffers are left as found; the result's ends holding the payload of what those two hold. -/
theorem sound_body (c : Dev nD) (E : Set ℕ) (i : grid0.Coords) (s0 s1 s2 : Fin 2)
    (X0 : S4x768x1024.Idx → Elt F .f32) (X1 : S768x1024.Idx → Elt F .f32) (X2 : S4x768x1024.Idx → Elt F .f32) (K : PUnit → sProp 𝕄) :
    iprop((owns (c : Thread nD τ) (stage0_0 s0) fullShare X0 ∗ owns (c : Thread nD τ) (stage0_1 s1) fullShare X1 ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (Gen.k0_pay1 X0 X1)) -∗ K ⟨⟩))
      ⊢ wp frame (wpE (defs₀ (F := F)) 𝒱₀ c none) E
          (cc0__ln_add_block i (stage0_0 s0) (hstage0_0 s0) (stage0_1 s1) (hstage0_1 s1) (stage0_2 s2) (hstage0_2 s2)) K := by
  fin_cases s0 <;> fin_cases s1 <;> fin_cases s2
  · body_case read0_0 read1_0 write2_0
  · body_case read0_0 read1_0 write2_1
  · body_case read0_0 read1_1 write2_0
  · body_case read0_0 read1_1 write2_1
  · body_case read0_1 read1_0 write2_0
  · body_case read0_1 read1_0 write2_1
  · body_case read0_1 read1_1 write2_0
  · body_case read0_1 read1_1 write2_1

/-! ## The frame -/

variable (m : (ℓ : Loc nD τ sig) → Buf (Elt F) ℓ) (ρ : Dev nD → PrngReg)

/-- The proof data of the one pipeline on core `c`: the arrays at their launch contents; of what the body leaves
    in a staging buffer nothing is said (the relation that holds of any contents found and left); the invariant
    is the class's (the core's other scoped buffers and its generator register, each at something); full shares;
    nothing owed. -/
def rdat (c : Dev nD) : RDat τ (Elt F) Unit ℕ (UR sig nD τ) ℕ (cfgs 0) c where
  A w := Gen.V m c (Pipeline.arrRef spec0 w)
  after _ _ _ _ := True
  Φ _ := Pipeline.ΦA spec0 c
  q _ := fullShare
  owed _ := 0

/-- Every array is held at the full share. -/
theorem share_full (c : Dev nD) (w : Fin cfg0.W) : (rdat m c).share w = fullShare := by
  unfold RDat.share; split <;> rfl

/-- The body obligation of the data that say nothing, from `sound_body` at the point's staging buffers and at
    whatever contents they hold: the three buffers come back at some contents, of which nothing is asked; the
    invariant and what is owed are the same before and after a point. -/
theorem body_obligation (c : Dev nD) : (rdat m c).BodyObligation (defs₀ (F := F)) 𝒱₀ () Set.univ := fun t Y _ => by
  rw [Gen.bigSep_W0, Gen.bigSep_W0]
  rw [show (rdat m c).Φ t.succ = (rdat m c).Φ t.castSucc from rfl,
    show (rdat m c).owesAt () t.succ = (rdat m c).owesAt () t.castSucc from rfl]
  iintro ⟨HΦ, Ho, H0, H1, H2⟩
  iapply (sound_body (F := F) c Set.univ (grid0.coords t) (cfg0.slots t 0) (cfg0.slots t 1) (cfg0.slots t 2)
    (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  · iexists Gen.k0_pay1 (Y 0) (Y 1); isplitr; · ipureintro; trivial
    iexact H2

-- the frame run's implicit arguments are found by unifying its conclusion with this one, which takes
-- unfolding plain definitions in a metavariable's type
set_option backward.isDefEq.respectTransparency.types false in
/-- The run: every weakly fair execution of @main terminates, every window's array ends at some contents the
    relation allows and every other unscoped buffer as it was. -/
theorem run_frame : θ_run defs (onTc (τ := τ) (main (F := F))) (s₀ m ρ) (Pipeline.RDat.FramePost (cfgs 0) (rdat m) (Gen.V m)) :=
  Pipeline.RDat.θ_run_frame cfgs 0 Gen.launch0 defs₀ 𝒱₀ (rdat m) m ρ main (body_obligation m) (share_full m)
    (fun _ _ => rfl) (Gen.V m) (Gen.hmain m 𝒱₀) (fun _ _ => rfl) (fun _ _ => rfl)

/-- THE FRAME: the program terminates without a fault and the two argument arrays, windows the pipeline only
    reads, end holding what they held. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(Pipeline.RDat.FramePost.arr_in h c (0 : Fin 3) rfl).trans (Gen.V_main_arg0 m c),
       (Pipeline.RDat.FramePost.arr_in h c (1 : Fin 3) rfl).trans (Gen.V_main_arg1 m c)⟩)
    (run_frame m ρ)

end Cert.Kernel.Hand

end
-- ==== Proof.KIBody.lean ====
/-
  The kernel body's triple and the program's frame.

  The body of the one pallas_call reads its two input staging buffers whole, reads the result's staging buffer
  whole (a value nothing uses), and stores into the result's staging buffer, whole, the layer-normalised rows of
  the first plus the positional rows of the second (the generated payload `Gen.k0_pay1`). `sound_body` states
  that as a triple at any of the two staging buffers each window may be on.

  All three windows' blocks are cut at the arrays' end at the last grid point, so what a staging buffer holds past
  the array's rows is a word nothing names. The frame (the program terminates, nothing faults, the two argument
  arrays end as they began) needs none of it: the proof data constrain what the body leaves by the relation that
  holds of everything, the body obligation is `sound_body` with the contents forgotten, and the library's frame
  run concludes that an input window's array, never written, holds its entry contents.
-/
import proofs.«113201_g14345190768845_cont_week2b_405_11_alg».proof.Proof.Gen.KernelIdeal.Frame
import proofs.«113201_g14345190768845_cont_week2b_405_11_alg».proof.Proof.Gen.KernelIdeal.Skeleton
import Idealize.ShloMosaic.Lib.Pipeline.Kit
import Idealize.ShloMosaic.Lib.Pipeline.Frame
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-- The kernel's variants: none. -/
abbrev 𝒱₀ : Variants := Variants.none

/-! ## The accesses are whole-buffer accesses

Each access of the body is at offset zero on every axis and of the buffer's own sizes: a load reads the buffer's
contents, an unmasked store replaces them. Stated once per staging buffer. -/

theorem off3 : (![0, 0, 0] : Fin 3 → Nat) = fun _ => 0 := funext fun a => by fin_cases a <;> rfl
theorem off2 : (![0, 0] : Fin 2 → Nat) = fun _ => 0 := funext fun a => by fin_cases a <;> rfl

theorem read0_0 (f : cc0_stg0_0.ty.Contents (Elt F)) :
    (Memref.whole cc0_stg0_0 : Memref sig .tc _ _ _).view.readAt (Elt F) (Rect.unit (s := S4x768x1024) ![0, 0, 0] S4x768x1024.size
      inb_S4x768x1024_S4x768x1024_0_0_0).toLoadRect f = f := Memref.readAt_unit_zero (Elt F) cc0_stg0_0 off3 _ f
theorem read0_1 (f : cc0_stg0_1.ty.Contents (Elt F)) :
    (Memref.whole cc0_stg0_1 : Memref sig .tc _ _ _).view.readAt (Elt F) (Rect.unit (s := S4x768x1024) ![0, 0, 0] S4x768x1024.size
      inb_S4x768x1024_S4x768x1024_0_0_0).toLoadRect f = f := Memref.readAt_unit_zero (Elt F) cc0_stg0_1 off3 _ f
theorem read1_0 (f : cc0_stg1_0.ty.Contents (Elt F)) :
    (Memref.whole cc0_stg1_0 : Memref sig .tc _ _ _).view.readAt (Elt F) (Rect.unit (s := S768x1024) ![0, 0] S768x1024.size
      inb_S768x1024_S768x1024_0_0).toLoadRect f = f := Memref.readAt_unit_zero (Elt F) cc0_stg1_0 off2 _ f
theorem read1_1 (f : cc0_stg1_1.ty.Contents (Elt F)) :
    (Memref.whole cc0_stg1_1 : Memref sig .tc _ _ _).view.readAt (Elt F) (Rect.unit (s := S768x1024) ![0, 0] S768x1024.size
      inb_S768x1024_S768x1024_0_0).toLoadRect f = f := Memref.readAt_unit_zero (Elt F) cc0_stg1_1 off2 _ f
theorem write2_0 (f w : cc0_stg2_0.ty.Contents (Elt F)) :
    (((Memref.whole cc0_stg2_0).access (Rect.unit (s := S4x768x1024) ![0, 0, 0] S4x768x1024.size inb_S4x768x1024_S4x768x1024_0_0_0)) :
      View sig .tc _ _ _).write (Elt F) f w Finset.univ = w := Memref.write_access_unit_zero_univ (Elt F) cc0_stg2_0 off3 _ f w
theorem write2_1 (f w : cc0_stg2_1.ty.Contents (Elt F)) :
    (((Memref.whole cc0_stg2_1).access (Rect.unit (s := S4x768x1024) ![0, 0, 0] S4x768x1024.size inb_S4x768x1024_S4x768x1024_0_0_0)) :
      View sig .tc _ _ _).write (Elt F) f w Finset.univ = w := Memref.write_access_unit_zero_univ (Elt F) cc0_stg2_1 off3 _ f w

/-! ## The kernel body's triple -/

set_option hygiene false in
/-- One case of the triple below, at the three named staging buffers (the two read equations and the write
    equation of those buffers are the arguments): the buffers' points-tos spelled out, the four memory operations
    run, the continuation entered at what the buffers then hold. -/
local macro "body_case " r0:ident r1:ident w2:ident : tactic => `(tactic| (
    simp only [owns_whole_eq, cc0__ln_add_block_eq_skeleton]; unfold cc0__ln_add_block_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [$r0:ident, $r1:ident, $w2:ident]
    isplitl [H0]
    · iexists f0; isplitr; · ipureintro; exact hf0
      iexact H0
    isplitl [H1]
    · iexists f1; isplitr; · ipureintro; exact hf1
      iexact H1
    · iexists Gen.k0_pay1 f0 f1; isplitr; · ipureintro; rw [hf0, hf1]
      iexact H2))

/-- The kernel body on staging buffers `s0`, `s1`, `s2` of the three windows (each 0 or 1 by the point): the whole
    loads of the two inputs' buffers, a whole load of the result's buffer that nothing uses, the whole store of the
    payload. The inputs' buffers are left as found; the result's ends holding the payload of what those two hold. -/
theorem sound_body (c : Dev nD) (E : Set ℕ) (i : grid0.Coords) (s0 s1 s2 : Fin 2)
    (X0 : S4x768x1024.Idx → Elt F .f32) (X1 : S768x1024.Idx → Elt F .f32) (X2 : S4x768x1024.Idx → Elt F .f32) (K : PUnit → sProp 𝕄) :
    iprop((owns (c : Thread nD τ) (stage0_0 s0) fullShare X0 ∗ owns (c : Thread nD τ) (stage0_1 s1) fullShare X1 ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (Gen.k0_pay1 X0 X1)) -∗ K ⟨⟩))
      ⊢ wp frame (wpE (defs₀ (F := F)) 𝒱₀ c none) E
          (cc0__ln_add_block i (stage0_0 s0) (hstage0_0 s0) (stage0_1 s1) (hstage0_1 s1) (stage0_2 s2) (hstage0_2 s2)) K := by
  fin_cases s0 <;> fin_cases s1 <;> fin_cases s2
  · body_case read0_0 read1_0 write2_0
  · body_case read0_0 read1_0 write2_1
  · body_case read0_0 read1_1 write2_0
  · body_case read0_0 read1_1 write2_1
  · body_case read0_1 read1_0 write2_0
  · body_case read0_1 read1_0 write2_1
  · body_case read0_1 read1_1 write2_0
  · body_case read0_1 read1_1 write2_1

/-! ## The frame -/

variable (m : (ℓ : Loc nD τ sig) → Buf (Elt F) ℓ) (ρ : Dev nD → PrngReg)

/-- The proof data of the one pipeline on core `c`: the arrays at their launch contents; of what the body leaves
    in a staging buffer nothing is said (the relation that holds of any contents found and left); the invariant
    is the class's (the core's other scoped buffers and its generator register, each at something); full shares;
    nothing owed. -/
def rdat (c : Dev nD) : RDat τ (Elt F) Unit ℕ (UR sig nD τ) ℕ (cfgs 0) c where
  A w := Gen.V m c (Pipeline.arrRef spec0 w)
  after _ _ _ _ := True
  Φ _ := Pipeline.ΦA spec0 c
  q _ := fullShare
  owed _ := 0

/-- Every array is held at the full share. -/
theorem share_full (c : Dev nD) (w : Fin cfg0.W) : (rdat m c).share w = fullShare := by
  unfold RDat.share; split <;> rfl

/-- The body obligation of the data that say nothing, from `sound_body` at the point's staging buffers and at
    whatever contents they hold: the three buffers come back at some contents, of which nothing is asked; the
    invariant and what is owed are the same before and after a point. -/
theorem body_obligation (c : Dev nD) : (rdat m c).BodyObligation (defs₀ (F := F)) 𝒱₀ () Set.univ := fun t Y _ => by
  rw [Gen.bigSep_W0, Gen.bigSep_W0]
  rw [show (rdat m c).Φ t.succ = (rdat m c).Φ t.castSucc from rfl,
    show (rdat m c).owesAt () t.succ = (rdat m c).owesAt () t.castSucc from rfl]
  iintro ⟨HΦ, Ho, H0, H1, H2⟩
  iapply (sound_body (F := F) c Set.univ (grid0.coords t) (cfg0.slots t 0) (cfg0.slots t 1) (cfg0.slots t 2)
    (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  · iexists Gen.k0_pay1 (Y 0) (Y 1); isplitr; · ipureintro; trivial
    iexact H2

-- the frame run's implicit arguments are found by unifying its conclusion with this one, which takes
-- unfolding plain definitions in a metavariable's type
set_option backward.isDefEq.respectTransparency.types false in
/-- The run: every weakly fair execution of @main terminates, every window's array ends at some contents the
    relation allows and every other unscoped buffer as it was. -/
theorem run_frame : θ_run defs (onTc (τ := τ) (main (F := F))) (s₀ m ρ) (Pipeline.RDat.FramePost (cfgs 0) (rdat m) (Gen.V m)) :=
  Pipeline.RDat.θ_run_frame cfgs 0 Gen.launch0 defs₀ 𝒱₀ (rdat m) m ρ main (body_obligation m) (share_full m)
    (fun _ _ => rfl) (Gen.V m) (Gen.hmain m 𝒱₀) (fun _ _ => rfl) (fun _ _ => rfl)

/-- THE FRAME: the program terminates without a fault and the two argument arrays, windows the pipeline only
    reads, end holding what they held. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(Pipeline.RDat.FramePost.arr_in h c (0 : Fin 3) rfl).trans (Gen.V_main_arg0 m c),
       (Pipeline.RDat.FramePost.arr_in h c (1 : Fin 3) rfl).trans (Gen.V_main_arg1 m c)⟩)
    (run_frame m ρ)

end Cert.KernelIdeal.Hand

end
-- ==== Proof.Spec.lean ====
/-
  The mathematics both programs compute, row by row, on the extended reals.

  A row `x : Fin 1024 → EReal` of the token embeddings has a mean `mean x = (∑ x) / 1024`, centred entries
  `x d - mean x`, and a variance `var x = (∑ (x - mean x)²) / 1024`; with the positional entry `p` the kernel
  writes `(x d - mean x) · rsqrt (var x + ε) + p` (`lnK`) and the reference `(x d - mean x) / sqrt (var x + ε) + p`
  (`lnR`). The variance is a sum of squares divided by a positive number, hence nonnegative on the extended reals
  whatever the row holds, so `var x + ε` lies in `(0, ⊤]`, and there multiplying by the reciprocal square root and
  dividing by the square root agree (`mul_rsqrt_eq_div_sqrt`): `lnK = lnR`, with no finiteness of the row asked.
-/
import Idealize.ShloMosaic.PureOps.Ideal
import Idealize.ShloMosaic.PureOps.Ideal.Laws
import Idealize.ShloMosaic.Lib.ValueIdx

noncomputable section

namespace Cert.LayerNormSpec

open Idealize.ShloMosaic Idealize.ShloMosaic.ValueIdx
open scoped BigOperators

/-- The row length as the programs write it: the f32 pattern of `1024.0`. -/
abbrev cN : EReal := Ideal.ofBits .f32 0x44800000#32
/-- The stabiliser as the programs write it: the f32 pattern nearest `1e-5`. -/
abbrev cEps : EReal := Ideal.ofBits .f32 0x3727C5AC#32

/-- A row's mean. -/
def mean (x : Fin 1024 → EReal) : EReal := Ideal.div (∑ k, x k) cN
/-- A row's (biased) variance about its mean. -/
def var (x : Fin 1024 → EReal) : EReal := Ideal.div (∑ k, (x k - mean x) * (x k - mean x)) cN
/-- Entry `d` of the normalised row plus the positional entry `p`, the kernel's way: times the reciprocal root. -/
def lnK (x : Fin 1024 → EReal) (p : EReal) (d : Fin 1024) : EReal := (x d - mean x) * Ideal.rsqrt (var x + cEps) + p
/-- The same, the reference's way: divided by the root. -/
def lnR (x : Fin 1024 → EReal) (p : EReal) (d : Fin 1024) : EReal := Ideal.div (x d - mean x) (Ideal.sqrt (var x + cEps)) + p

/-- The pattern of `1024.0` denotes the real `1024`. -/
theorem cN_eq : cN = ((1024 : ℝ) : EReal) := by
  simp [cN, Ideal.ofBits, Ideal.ieee, -EReal.coe_mul]; norm_num

/-- The stabiliser is a positive real. -/
theorem cEps_pos : ∃ r : ℝ, 0 < r ∧ cEps = (r : EReal) := by
  refine ⟨(10995116 : ℝ) * (2 : ℝ) ^ (-40 : ℤ), by positivity, ?_⟩
  simp [cEps, Ideal.ofBits, Ideal.ieee, -EReal.coe_mul]

/-- A square is nonnegative on the extended reals, at the infinities too. -/
theorem mul_self_nonneg' (a : EReal) : 0 ≤ a * a := by
  induction a using EReal.rec with
  | bot => simp
  | coe r => rw [← EReal.coe_mul]; exact_mod_cast mul_self_nonneg r
  | top => simp

/-- A nonnegative extended real divided by `1024` is nonnegative. -/
theorem div_cN_nonneg {s : EReal} (h : 0 ≤ s) : 0 ≤ Ideal.div s cN := by
  rw [cN_eq, Ideal.div_coe (by norm_num : (1024 : ℝ) ≠ 0)]
  exact mul_nonneg h (by exact_mod_cast (by positivity : (0 : ℝ) ≤ 1 / 1024))

theorem var_nonneg (x : Fin 1024 → EReal) : 0 ≤ var x :=
  div_cN_nonneg (Finset.sum_nonneg fun k _ => mul_self_nonneg' _)

/-- On `(0, ⊤]` the product with the reciprocal root is the quotient by the root. -/
theorem mul_rsqrt_eq_div_sqrt (a : EReal) {v : EReal} (hv : 0 < v) : a * Ideal.rsqrt v = Ideal.div a (Ideal.sqrt v) := by
  induction v using EReal.rec with
  | bot => exact absurd hv (not_lt.mpr bot_le)
  | top => simp [Ideal.div]
  | coe r =>
    have hr : 0 < r := EReal.coe_pos.mp hv
    have hs : (Real.sqrt r : EReal) ≠ 0 := by exact_mod_cast (Real.sqrt_pos.mpr hr).ne'
    rw [Ideal.rsqrt_coe, Ideal.sqrt_coe, if_neg (not_lt.mpr hr.le), if_neg hr.ne', if_neg (not_lt.mpr hr.le),
      Ideal.div, if_neg hs, ← EReal.coe_inv]

theorem var_add_eps_pos (x : Fin 1024 → EReal) : 0 < var x + cEps := by
  obtain ⟨r, hr, he⟩ := cEps_pos
  rw [he]
  exact lt_of_lt_of_le (EReal.coe_pos.mpr hr) (le_add_of_nonneg_left (var_nonneg x))

/-- The two ways agree on every row. -/
theorem lnK_eq_lnR (x : Fin 1024 → EReal) (p : EReal) (d : Fin 1024) : lnK x p d = lnR x p d := by
  unfold lnK lnR
  rw [mul_rsqrt_eq_div_sqrt _ (var_add_eps_pos x)]

/-- The whole result: entry `(b, s, d)` is the normalised row `(b, s, ·)` of `x` at `d` plus `pos (s, d)`. -/
def G (x : (⟨3, ![4, 8192, 1024]⟩ : Shape).Idx → EReal) (pos : (⟨2, ![8192, 1024]⟩ : Shape).Idx → EReal) :
    (⟨3, ![4, 8192, 1024]⟩ : Shape).Idx → EReal :=
  fun i => lnK (fun k => x (ix3 (i 0) (i 1) k)) (pos (ix2 (i 1) (i 2))) (i 2)

end Cert.LayerNormSpec

end
-- ==== Proof.KIPayload.lean ====
/-
  The kernel body's one payload, read at an index, on the extended reals.

  The body takes a block of token embeddings of shape [4, 768, 1024] and a block of positional rows of shape [768, 1024].
  It sums each row over its 1024 entries, keeps that sum as a column [4, 768, 1], divides by 1024 (the row's mean),
  spreads the column back over the row and subtracts (the centred entries), squares, sums and divides again (the
  variance), adds the stabiliser, takes the reciprocal square root, spreads that column over the row and multiplies, and
  last adds the positional block spread over the four batches. Read at entry (b, r, d) this is the normalised row
  (b, r, ·) of the first block at d, plus the second block's entry (r, d): LayerNormSpec.lnK.

  Four operations are not entrywise. Each is read at an index written by its coordinates: the sum over the last axis
  (rowSum_apply), the cast [a, b] to [a, b, 1] that keeps the reduced axis as a unit axis (shapeCast_ab_ab1_apply), the
  broadcast of such a column over the row (broadcastTo_ab1_abc_apply), and the broadcast of one [b, c] slab over a new
  leading axis (broadcastTo_1bc_abc_apply, after the library's cast [b, c] to [1, b, c]).
-/
import proofs.«113201_g14345190768845_cont_week2b_405_11_alg».proof.Proof.Gen.KernelIdeal.Skeleton
import proofs.«113201_g14345190768845_cont_week2b_405_11_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal
open scoped BigOperators

/-! ## The layout operations at an index -/

/-- An [a, b] array cast to [a, b, 1] reads, at (i, j, u), the operand at (i, j), whatever the unit coordinate u:
the two row-major positions are (i·b + j)·1 + u and i·b + j, and u is 0. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] column broadcast to [a, b, c] reads, at (i, j, k), the column at (i, j, 0): the first two axes keep
their coordinate (which is 0 anyway where the extent is 1) and the unit axis reads 0. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if 1 = 1 then 0 else k.val
    rfl

/-- A [1, b, c] slab broadcast to [a, b, c] reads, at (i, j, k), the slab at (0, j, k). -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show 0 = if 1 = 1 then 0 else i.val
    rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## The sum over the last axis -/

/-- The sum over the last axis of a [4, 768, 1024] block, read at row (b, r): the sum of that row's 1024 entries. The
index with k inserted on the dropped axis is (b, r, k), coordinate by coordinate. -/
theorem rowSum_apply (src : FVec Ideal S4x768x1024 .f32) (h : S4x768x1024.Reduces [2] S4x768)
    (hφ : FKind.Formats .f32) (hacc : (0x00000000#32 : BitVec 32) = 0x00000000#32) (b : Fin 4) (r : Fin 768) :
    multiReduction (F := Ideal) .add [2] S4x768 src 0x00000000#32 h hφ hacc (ix2 b r) = ∑ k : Fin 1024, src (ix3 b r k) := by
  refine (Ideal.multiReduction_add_single src 0x00000000#32 h hφ hacc (ix2 b r)).trans ?_
  refine Finset.sum_congr rfl fun k _ => congrArg src ?_
  funext a
  match a with
  | ⟨0, _⟩ => rfl
  | ⟨1, _⟩ => rfl
  | ⟨2, _⟩ => rfl

/-! ## The payload at an index -/

/-- A reciprocal square root at an index is the extended reals' reciprocal root of the element. -/
theorem rsqrt_apply {s : Shape} {φ : FTy} (v : FVec Ideal s φ) (i : s.Idx) : rsqrt v i = Ideal.rsqrt (v i) := rfl

/-- THE PAYLOAD AT (b, r, d): the row (b, r, ·) of the first block, normalised the kernel's way (centred, times the
reciprocal root of variance plus stabiliser), at d, plus the second block's entry (r, d). The entrywise operations and
the layout operations read through at the index; the two sums over the last axis become sums over the row's 1024
entries, the second after the centred squares under it have been read at (b, r, k); what is left is the specification's
formula with its mean and variance written out. -/
theorem pay_apply (X0 : Vec Ideal S4x768x1024 .f32) (X1 : Vec Ideal S768x1024 .f32) (b : Fin 4) (r : Fin 768) (d : Fin 1024) :
    Cert.KernelIdeal.Gen.k0_pay1 (F := Ideal) X0 X1 (ix3 b r d)
      = Cert.LayerNormSpec.lnK (fun k => X0 (ix3 b r k)) (X1 (ix2 r d)) d := by
  unfold Cert.KernelIdeal.Gen.k0_pay1
  simp only [addf_apply, mulf_apply, subf_apply, divf_apply, rsqrt_apply, broadcast_apply,
    broadcastTo_ab1_abc_apply, broadcastTo_1bc_abc_apply, shapeCast_ab_ab1_apply, shapeCast_ab_1ab_apply, rowSum_apply]
  rw [rowSum_apply X0 _ _ _ b r, rowSum_apply _ _ _ _ b r]
  simp only [addf_apply, mulf_apply, subf_apply, divf_apply, rsqrt_apply, broadcast_apply,
    broadcastTo_ab1_abc_apply, broadcastTo_1bc_abc_apply, shapeCast_ab_ab1_apply, shapeCast_ab_1ab_apply]
  rw [rowSum_apply X0 _ _ _ b r]
  rfl

end Cert.KernelIdeal.Hand

end
-- ==== Proof.KIValue.lean ====
/-
  The idealized kernel's run, with its result array NAMED: after every weakly fair execution the result array holds,
  at each index `(b, s, d)`, the normalised row `(b, s, ·)` of the embeddings at `d` plus the positional entry `(s, d)`
  (`Cert.LayerNormSpec.G`), and the two argument arrays hold what they held.

  The grid has eleven points; point `t` works on the sequence rows `768·t … 768·t + 767`, and the last block overhangs
  the arrays by 256 rows: its fetches fill only the first 512 rows of the staging buffers and its write-back writes only
  those. A row of the result depends on the same row of the embeddings block and of the positional block only (the two
  sums run along the row), so on the rows inside the arrays the body's result does not depend on what the staging
  buffers hold past the arrays' end: that is what the body obligation of the clipped windows asks. The blocks' rows
  inside the array cover all 8192 rows, so the array ends at `G`.
-/
import proofs.«113201_g14345190768845_cont_week2b_405_11_alg».proof.Proof.Gen.KernelIdeal.Frame
import proofs.«113201_g14345190768845_cont_week2b_405_11_alg».proof.Proof.Gen.KernelIdeal.Skeleton
import proofs.«113201_g14345190768845_cont_week2b_405_11_alg».proof.Proof.KIBody
import proofs.«113201_g14345190768845_cont_week2b_405_11_alg».proof.Proof.KIPayload
import proofs.«113201_g14345190768845_cont_week2b_405_11_alg».proof.Proof.Spec
import Idealize.ShloMosaic.Lib.Pipeline.Kit
import Idealize.ShloMosaic.Lib.Pipeline.Frame
import Idealize.ShloMosaic.Lib.Pipeline.Value
import Idealize.ShloMosaic.Lib.ValueIdx
import Idealize.ShloMosaic.Lib.Tactic

noncomputable section

namespace Cert.KernelIdeal.HandValue

open Cert.KernelIdeal Cert.KernelIdeal.Gen
open Cert.KernelIdeal.Hand (𝒱₀ sound_body pay_apply)
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The embeddings and the positional table as the region finds them, and the result the kernel is shown to leave. -/
abbrev xarr (c : Dev nD) : S4x8192x1024.Idx → EReal := m ((c : Thread nD τ).loc main_arg0)
abbrev parr (c : Dev nD) : S8192x1024.Idx → EReal := m ((c : Thread nD τ).loc main_arg1)
def Gout (c : Dev nD) : Buf (Elt Ideal) ((c : Thread nD τ).loc main_v0) := Cert.LayerNormSpec.G (xarr m c) (parr m c)

/-- The proof data: the arrays as launched; after the body at point `t` the two input buffers hold their blocks and
    the result's buffer block `t` of `G`, each on the rows inside the array (past the array's end the filler is zero
    and nothing reads it). -/
def dats (_ : Fin 1) (c : Dev nD) : Dat τ (Elt Ideal) Unit ℕ (UR sig nD τ) ℕ cfg0 c where
  A w := Gen.V m c (Pipeline.arrRef spec0 w)
  after w t := match w with
    | ⟨0, _⟩ => win0_0.fill (grid0.coords t) (fun _ => (0 : EReal)) (Gen.iblk m c 0 t)
    | ⟨1, _⟩ => win0_1.fill (grid0.coords t) (fun _ => (0 : EReal)) (Gen.iblk m c 1 t)
    | ⟨2, _⟩ => win0_2.fill (grid0.coords t) (fun _ => (0 : EReal)) ((win0_2.blk t).view.read (Elt Ideal) (Gout m c))
  Φ _ := Pipeline.ΦA (U := UR sig nD τ) (Val := Elt Ideal) spec0 c
  q _ := fullShare
  owed _ := 0

theorem before_0 (c : Dev nD) (t : Fin cfg0.N) (d) :
    (dats m 0 c).before (0 : Fin 3) t d = win0_0.fill (grid0.coords t) d (Gen.iblk m c 0 t) := by
  rw [Dat.before_fetched _ _ _ (fetch0_0 t)]; rfl
theorem before_1 (c : Dev nD) (t : Fin cfg0.N) (d) :
    (dats m 0 c).before (1 : Fin 3) t d = win0_1.fill (grid0.coords t) d (Gen.iblk m c 1 t) := by
  rw [Dat.before_fetched _ _ _ (fetch0_1 t)]; rfl
theorem before_2 (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

/-! ## Where a block sits in its array -/

/-- The three windows' block indices at point `t`: block `t` along the sequence axis, block `0` along the others. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The rows a transfer at point `t` moves: all four batch entries and all 1024 columns; along the sequence axis the
    block's rows inside the array — the same number for the three windows. -/
theorem xsize_facts : ∀ t : Fin cfg0.N,
    win0_0.xsize (grid0.coords t) (0 : Fin 3) = 4 ∧ win0_0.xsize (grid0.coords t) (2 : Fin 3) = 1024
    ∧ win0_1.xsize (grid0.coords t) (0 : Fin 2) = win0_0.xsize (grid0.coords t) (1 : Fin 3) ∧ win0_1.xsize (grid0.coords t) (1 : Fin 2) = 1024
    ∧ win0_2.xsize (grid0.coords t) (0 : Fin 3) = 4 ∧ win0_2.xsize (grid0.coords t) (1 : Fin 3) = win0_0.xsize (grid0.coords t) (1 : Fin 3)
    ∧ win0_2.xsize (grid0.coords t) (2 : Fin 3) = 1024
    ∧ t.val * 768 + win0_0.xsize (grid0.coords t) (1 : Fin 3) = min 8192 (t.val * 768 + 768) :=
  (by decide +kernel : ∀ t : Fin grid0.N, _)

/-! ## What the staging buffers hold on the rows inside the arrays -/

/-- An entry of the embeddings' staging buffer after the fetch at point `t`, on a row inside the array, is the
    embeddings' entry at the block's offset plus the entry's own coordinates — whatever the buffer held before. -/
theorem x_entry (c : Dev nD) (t : Fin cfg0.N) (d0 : S4x768x1024.Idx → EReal) (y : S4x768x1024.Idx)
    (hy : ∀ a, (y a).val < win0_0.xsize (grid0.coords t) a) (i : S4x8192x1024.Idx)
    (hi : ∀ a, (i a).val = win0_0.index t a * win0_0.size a + (y a).val) :
    win0_0.fill (grid0.coords t) d0 (Gen.iblk m c 0 t) y = xarr m c i := by
  unfold Window.fill
  rw [dif_pos ((win0_0.moved_iff _ y).mpr hy)]
  unfold Gen.iblk
  rw [View.read_apply]
  show xarr m c _ = xarr m c i
  congr 1
  funext a; apply Fin.ext
  rw [hi a]
  show win0_0.index t a * win0_0.size a + 1 * (y a).val = _
  omega

/-- The same of the positional table's staging buffer. -/
theorem p_entry (c : Dev nD) (t : Fin cfg0.N) (d1 : S768x1024.Idx → EReal) (y : S768x1024.Idx)
    (hy : ∀ a, (y a).val < win0_1.xsize (grid0.coords t) a) (i : S8192x1024.Idx)
    (hi : ∀ a, (i a).val = win0_1.index t a * win0_1.size a + (y a).val) :
    win0_1.fill (grid0.coords t) d1 (Gen.iblk m c 1 t) y = parr m c i := by
  unfold Window.fill
  rw [dif_pos ((win0_1.moved_iff _ y).mpr hy)]
  unfold Gen.iblk
  rw [View.read_apply]
  show parr m c _ = parr m c i
  congr 1
  funext a; apply Fin.ext
  rw [hi a]
  show win0_1.index t a * win0_1.size a + 1 * (y a).val = _
  omega

/-! ## The body's result on the rows inside the array -/

/-- On the rows inside the array the body's result, computed from the two buffers as fetched at point `t` — whatever
    they hold past the arrays' end —, is block `t` of `G`: a result row is a function of the same row of each buffer. -/
theorem pay_cut (c : Dev nD) (t : Fin cfg0.N) (d0 : S4x768x1024.Idx → EReal) (d1 : S768x1024.Idx → EReal) :
    win0_2.cut (grid0.coords t)
        (Gen.k0_pay1 (F := Ideal) (win0_0.fill (grid0.coords t) d0 (Gen.iblk m c 0 t))
          (win0_1.fill (grid0.coords t) d1 (Gen.iblk m c 1 t)))
      = (win0_2.blk t).view.read (Elt Ideal) (Gout m c) := by
  funext j
  obtain ⟨hi0, hi1, hi2, hp0, hp1, ho0, ho1, ho2⟩ := idx_facts t
  obtain ⟨hx0, hx2, hq0, hq1, hz0, hz1, hz2, -⟩ := xsize_facts t
  have hj0 : (j 0).val < 4 := hz0 ▸ (j 0).isLt
  have hj1 : (j 1).val < win0_0.xsize (grid0.coords t) 1 := hz1 ▸ (j 1).isLt
  have hj1' : (j 1).val < 768 := lt_of_lt_of_le hj1 (win0_0.xsize_le _ 1)
  have hj2 : (j 2).val < 1024 := hz2 ▸ (j 2).isLt
  have e : win0_2.xinj (grid0.coords t) j
      = ix3 (⟨(j 0).val, hj0⟩ : Fin 4) (⟨(j 1).val, hj1'⟩ : Fin 768) (⟨(j 2).val, hj2⟩ : Fin 1024) :=
    funext fun a => Fin.ext (by match a with | ⟨0, _⟩ => rfl | ⟨1, _⟩ => rfl | ⟨2, _⟩ => rfl)
  show Gen.k0_pay1 (F := Ideal) _ _ (win0_2.xinj (grid0.coords t) j) = _
  rw [e, pay_apply, View.read_apply]
  show _ = Gout m c ((win0_2.blk t).view.emb j)
  unfold Gout Cert.LayerNormSpec.G
  have g0 : (((win0_2.blk t).view.emb j) 0).val = (j 0).val := by
    show win0_2.index t 0 * 4 + 1 * (j 0).val = _
    rw [ho0]; omega
  have g1 : (((win0_2.blk t).view.emb j) 1).val = t.val * 768 + (j 1).val := by
    show win0_2.index t 1 * 768 + 1 * (j 1).val = _
    rw [ho1]; omega
  have g2 : (((win0_2.blk t).view.emb j) 2).val = (j 2).val := by
    show win0_2.index t 2 * 1024 + 1 * (j 2).val = _
    rw [ho2]; omega
  have hd : (⟨(j 2).val, hj2⟩ : Fin 1024) = ((win0_2.blk t).view.emb j) 2 := Fin.ext g2.symm
  have hf : (fun k : Fin 1024 => win0_0.fill (grid0.coords t) d0 (Gen.iblk m c 0 t)
        (ix3 (⟨(j 0).val, hj0⟩ : Fin 4) (⟨(j 1).val, hj1'⟩ : Fin 768) k))
      = fun k : Fin 1024 => xarr m c (ix3 (((win0_2.blk t).view.emb j) 0) (((win0_2.blk t).view.emb j) 1) k) :=
    funext fun k => x_entry m c t d0 _
      (fun a => by
        match a with
        | ⟨0, _⟩ => exact lt_of_lt_of_eq hj0 hx0.symm
        | ⟨1, _⟩ => exact hj1
        | ⟨2, _⟩ => exact lt_of_lt_of_eq k.isLt hx2.symm) _
      (fun a => by
        match a with
        | ⟨0, _⟩ => show (((win0_2.blk t).view.emb j) 0).val = win0_0.index t 0 * 4 + (j 0).val; rw [g0, hi0]; omega
        | ⟨1, _⟩ => show (((win0_2.blk t).view.emb j) 1).val = win0_0.index t 1 * 768 + (j 1).val; rw [g1, hi1]
        | ⟨2, _⟩ => show k.val = win0_0.index t 2 * 1024 + k.val; rw [hi2]; omega)
  have hp : win0_1.fill (grid0.coords t) d1 (Gen.iblk m c 1 t)
        (ix2 (⟨(j 1).val, hj1'⟩ : Fin 768) (⟨(j 2).val, hj2⟩ : Fin 1024))
      = parr m c (ix2 (((win0_2.blk t).view.emb j) 1) (((win0_2.blk t).view.emb j) 2)) :=
    p_entry m c t d1 _
      (fun a => by
        match a with
        | ⟨0, _⟩ => exact lt_of_lt_of_eq hj1 hq0.symm
        | ⟨1, _⟩ => exact lt_of_lt_of_eq hj2 hq1.symm) _
      (fun a => by
        match a with
        | ⟨0, _⟩ => show (((win0_2.blk t).view.emb j) 1).val = win0_1.index t 0 * 768 + (j 1).val; rw [g1, hp0]
        | ⟨1, _⟩ => show (((win0_2.blk t).view.emb j) 2).val = win0_1.index t 1 * 1024 + (j 2).val; rw [g2, hp1]; omega)
  rw [hf, hp, hd]

/-! ## The body obligation -/

/-- At every point: the two input buffers arrive just fetched (their blocks on the rows inside the arrays, anything
    past them), the result's buffer at anything; the body leaves the inputs as they were and the result's buffer at its
    result, which on the rows inside the array is block `t` of `G` (`pay_cut`) — all the three clipped windows ask. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := Ideal) c Set.univ (grid0.coords t) (cfg0.slots t 0) (cfg0.slots t 1) (cfg0.slots t 2)
    (win0_0.fill (grid0.coords t) d0 (Gen.iblk m c 0 t)) (win0_1.fill (grid0.coords t) d1 (Gen.iblk m c 1 t)) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) ((dats m 0 c).after (0 : Fin 3) t) = Gen.iblk m c 0 t := win0_0.cut_fill _ _ _
  have hp : win0_1.cut (grid0.coords t) ((dats m 0 c).after (1 : Fin 3) t) = Gen.iblk m c 1 t := win0_1.cut_fill _ _ _
  have ho : win0_2.cut (grid0.coords t) ((dats m 0 c).after (2 : Fin 3) t)
      = (win0_2.blk t).view.read (Elt Ideal) (Gout m c) := win0_2.cut_fill _ _ _
  isplitl [H0]
  · iexists d0
    change _ ⊢ owns (c : Thread nD τ) (stage0_0 (cfg0.slots t 0)) fullShare
      (win0_0.fill (grid0.coords t) d0 (win0_0.cut (grid0.coords t) ((dats m 0 c).after (0 : Fin 3) t)))
    rw [hx]
  isplitl [H1]
  · iexists d1
    change _ ⊢ owns (c : Thread nD τ) (stage0_1 (cfg0.slots t 1)) fullShare
      (win0_1.fill (grid0.coords t) d1 (win0_1.cut (grid0.coords t) ((dats m 0 c).after (1 : Fin 3) t)))
    rw [hp]
  · iexists Gen.k0_pay1 (F := Ideal) (win0_0.fill (grid0.coords t) d0 (Gen.iblk m c 0 t))
      (win0_1.fill (grid0.coords t) d1 (Gen.iblk m c 1 t))
    change _ ⊢ owns (c : Thread nD τ) (stage0_2 (cfg0.slots t 2)) fullShare
      (win0_2.fill (grid0.coords t) _ (win0_2.cut (grid0.coords t) ((dats m 0 c).after (2 : Fin 3) t)))
    rw [win0_2.fill_congr_cut (grid0.coords t) ((pay_cut m c t d0 d1).trans ho.symm)]

/-! ## The run, and the result array after it -/

/-- Every weakly fair execution terminates, nothing faults, and each windowed array ends at what the write-backs made
    of it. -/
theorem run_main : θ_run defs (onTc (τ := τ) (main (F := Ideal))) (s₀ m ρ) (Pipeline.FramePost cfgs (dats m) 0 (Gen.V m)) :=
  Pipeline.θ_run_frame cfgs (dats m) 0 Gen.launch0 defs₀ 𝒱₀ m ρ main
    (hbody := body_obligation m) (hshare := fun c => (dats m 0 c).share_full fun _ => rfl) (howed := fun _ _ => rfl)
    (V := Gen.V m) (hmain := Gen.hmain m 𝒱₀) (hA := fun _ _ => rfl) (hΦ := fun _ _ => rfl)

/-- What point `t` writes back is block `t` of `G`. -/
theorem flushed_eq (c : Dev nD) (t : Fin cfg0.N) :
    (dats m 0 c).flushed (2 : Fin 3) t = ((cfg0.win 2).blk t).view.read (Elt Ideal) (Gout m c) :=
  win0_2.cut_fill _ _ _

/-- An index of the result array lies in point `t`'s block iff its sequence row is among the block's rows inside the
    array (every batch entry and every column is). -/
theorem mem_blk (t : Fin cfg0.N) (i : S4x8192x1024.Idx) :
    i ∈ ((cfg0.win 2).blk t).view.set ↔ t.val * 768 ≤ (i 1).val ∧ (i 1).val < min 8192 (t.val * 768 + 768) := by
  show i ∈ ((View.whole main_v0).slice (win0_2.rect t)).set ↔ _
  rw [View.set_slice_whole, Rect.mem_set_unit]
  obtain ⟨-, -, -, -, -, ho0, ho1, ho2⟩ := idx_facts t
  obtain ⟨-, -, -, -, hz0, hz1, hz2, hsum⟩ := xsize_facts t
  have h0 : (i 0).val < 4 := (i 0).isLt
  have h2 : (i 2).val < 1024 := (i 2).isLt
  constructor
  · intro h
    have h1 := h 1
    change win0_2.index t 1 * 768 ≤ (i 1).val ∧ (i 1).val < win0_2.index t 1 * 768 + win0_2.xsize (grid0.coords t) 1 at h1
    rw [ho1, hz1] at h1
    omega
  · intro h a
    match a with
    | ⟨0, _⟩ =>
      change win0_2.index t 0 * 4 ≤ (i 0).val ∧ (i 0).val < win0_2.index t 0 * 4 + win0_2.xsize (grid0.coords t) 0
      rw [ho0, hz0]; omega
    | ⟨1, _⟩ =>
      change win0_2.index t 1 * 768 ≤ (i 1).val ∧ (i 1).val < win0_2.index t 1 * 768 + win0_2.xsize (grid0.coords t) 1
      rw [ho1, hz1]; omega
    | ⟨2, _⟩ =>
      change win0_2.index t 2 * 1024 ≤ (i 2).val ∧ (i 2).val < win0_2.index t 2 * 1024 + win0_2.xsize (grid0.coords t) 2
      rw [ho2, hz2, Nat.zero_mul, Nat.zero_add]; exact ⟨Nat.zero_le _, h2⟩

/-- Row `s` of the array lies in the block of point `s / 768`. -/
theorem cover (i : S4x8192x1024.Idx) : ∃ t : Fin cfg0.N, (cfg0.win 2).flush t = true ∧ i ∈ ((cfg0.win 2).blk t).view.set := by
  have hs : (i 1).val < 8192 := (i 1).isLt
  refine ⟨⟨(i 1).val / 768, by rw [show cfg0.N = 11 from N_0]; omega⟩, flush0_2 _, ?_⟩
  rw [mem_blk]
  show (i 1).val / 768 * 768 ≤ (i 1).val ∧ (i 1).val < min 8192 ((i 1).val / 768 * 768 + 768)
  omega

/-- The result array after the run. -/
theorem final (c : Dev nD) : (dats m 0 c).arrAt (2 : Fin 3) cfg0.N = Gout m c :=
  (dats m 0 c).arrAt_eq_of_cover (2 : Fin 3) (Gout m c) (fun t _ => flushed_eq m c t) cover

/-- On every device, from any memory with zero counters: every weakly fair execution of the idealized kernel's `@main`
    terminates with the result array at `G` of the argument arrays and the arguments unchanged. -/
theorem run :
    θ_run defs (onTc (τ := τ) (main (F := Ideal))) ⟨m, fun _ => 0, ρ⟩ (fun r => ∀ c : Dev nD,
      r.2.mem ((c.tc : Thread nD τ).loc main_v0)
          = Cert.LayerNormSpec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final m c),
      ((h c).1 0).trans (((dats m 0 c).arrAt_in 0 rfl _).trans (Gen.V_main_arg0 m c)),
      ((h c).1 1).trans (((dats m 0 c).arrAt_in 1 rfl _).trans (Gen.V_main_arg1 m c))⟩) (run_main m ρ)

end Cert.KernelIdeal.HandValue

end
-- ==== Proof.RefTerm.lean ====
/-
  The reference's result as ONE term of its two argument arrays: the operations of its `@main`, and of the two
  functions it calls (the `take` of the positional rows at the positions `0, 1, …, 8191`, with its range test and its
  negative-index wrap), composed in program order. `posRows` is the `take`: the gathered rows where the (wrapped) position
  lies in `[0, 8191]`, a NaN pattern elsewhere. `refOut` is the layer normalisation of the embeddings — mean and variance
  as sums over the last axis divided by `1024`, the centred entries divided by the root of the variance plus `ε` — plus
  those rows broadcast over the batch axis.
-/
import proofs.«113201_g14345190768845_cont_week2b_405_11_alg».proof.ReferenceIdeal
import proofs.«113201_g14345190768845_cont_week2b_405_11_alg».proof.Proof.Gen.ReferenceIdeal

noncomputable section

namespace Cert.ReferenceIdeal.Hand

open Cert.ReferenceIdeal Idealize.ShloMosaic
open Cert.ReferenceIdeal.Facts₀

variable {F : FTy → Type} [FloatOps F]

/-- The positions `0 … 8191` as a `[1, 8192]` array of words. -/
def positions : IVec S1x8192 32 :=
  broadcastInDim S1x8192 ![1] bcast_S8192_S1x8192_1 (iotaInDim S8192 32 0)

/-- The positions after `take`'s wrap of negative indices (`i < 0 ↦ i + 8192`), as the gather's `[1, 8192, 1]` index array. -/
def wrapped : IVec S1x8192x1 32 :=
  broadcastInDim S1x8192x1 ![0, 1] bcast_S1x8192_S1x8192x1_0_1
    (select (cmpi .slt positions (broadcastInDim S1x8192 ![] bcast_S_S1x8192 (constantI S_ 32 0#32)))
      (addi positions (broadcastInDim S1x8192 ![] bcast_S_S1x8192 (constantI S_ 32 8192#32)))
      positions)

/-- `take`'s range test per position: `0 ≤ i ≤ 8191`, and-reduced over the unit index axis. -/
def inRange : IVec S1x8192 1 :=
  Host.reduce IntOp.andi
    (andi (cmpi .sge wrapped (broadcastInDim S1x8192x1 ![] bcast_S_S1x8192x1 (constantI S_ 32 0#32)))
      (cmpi .sle wrapped (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- The positional rows `take` returns: gathered where in range, the NaN pattern elsewhere. -/
def posRows (pos : FVec F S8192x1024 .f32) : FVec F S1x8192x1024 .f32 :=
  select (broadcastInDim S1x8192x1024 ![0, 1] bcast_S1x8192_S1x8192x1024_0_1 inRange)
    (Host.gather gather_S8192x1024_S1x8192x1_S1x8192x1024_2_0_n_n_0_2_11024 pos wrapped)
    (broadcastInDim S1x8192x1024 ![] bcast_S_S1x8192x1024 (constant S_ .f32 0x7FC00000#32))

/-- The rows' means, as a `[4, 8192, 1]` column. -/
def meanCol (x : FVec F S4x8192x1024 .f32) : FVec F S4x8192x1 .f32 :=
  Host.divf
    (broadcastInDim S4x8192x1 ![0, 1] bcast_S4x8192_S4x8192x1_0_1
      (Host.reduceAdd x (constant S_ .f32 0x00000000#32) reducesTo_S4x8192x1024_S4x8192_d2 h_S_))
    (broadcastInDim S4x8192x1 ![] bcast_S_S4x8192x1 (constant S_ .f32 0x44800000#32))

/-- The centred embeddings. -/
def centred (x : FVec F S4x8192x1024 .f32) : FVec F S4x8192x1024 .f32 :=
  subf x (broadcastInDim S4x8192x1024 ![0, 1, 2] bcast_S4x8192x1_S4x8192x1024_0_1_2 (meanCol x))

/-- The rows' variances, as a `[4, 8192, 1]` column. -/
def varCol (x : FVec F S4x8192x1024 .f32) : FVec F S4x8192x1 .f32 :=
  Host.divf
    (broadcastInDim S4x8192x1 ![0, 1] bcast_S4x8192_S4x8192x1_0_1
      (Host.reduceAdd (mulf (centred x) (centred x)) (constant S_ .f32 0x00000000#32) reducesTo_S4x8192x1024_S4x8192_d2 h_S_))
    (broadcastInDim S4x8192x1 ![] bcast_S_S4x8192x1 (constant S_ .f32 0x44800000#32))

/-- The reference's result. -/
def refOut (x : FVec F S4x8192x1024 .f32) (pos : FVec F S8192x1024 .f32) : FVec F S4x8192x1024 .f32 :=
  addf
    (Host.divf (centred x)
      (broadcastInDim S4x8192x1024 ![0, 1, 2] bcast_S4x8192x1_S4x8192x1024_0_1_2
        (Host.sqrt (addf (varCol x) (broadcastInDim S4x8192x1 ![] bcast_S_S4x8192x1 (constant S_ .f32 0x3727C5AC#32))))))
    (broadcastInDim S4x8192x1024 ![0, 1, 2] bcast_S1x8192x1024_S4x8192x1024_0_1_2 (posRows pos))

end Cert.ReferenceIdeal.Hand

end
-- ==== Proof.RefRun.lean ====
/-
  The reference program's run, read back. Its `@main` is a straight line of fifty host operations once the two
  functions it calls are inlined at their call sites — `take`'s twenty-two operations, with the one `select` of the
  `where` it calls in their midst, between the two operations that build the positions and the twenty-five of the layer
  normalisation and the final sum. Every weakly fair execution terminates with the result buffer at `refOut` of the two
  argument arrays' launch contents (the same operations composed in program order), the arguments unchanged.
-/
import proofs.«113201_g14345190768845_cont_week2b_405_11_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- `@main`'s fifty operations in order, the calls unfolded: the positions (an iota and its broadcast); `take` over the
    buffers of its call record — the comparison with zero, the sum with `8192`, `where`'s select of the two, the index
    array, the two range tests and their conjunction reduced over the unit axis, the gather, the mask's broadcast, the NaN
    pattern's broadcast and the final select —; then the mean, the centred entries, the variance, the root, the quotient,
    the positional rows broadcast over the batch axis and the sum. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    TRef.nullary main_call0.c (constantI S_ 32 0#32),
    TRef.unary main_call0.c main_call0.v0 (broadcastInDim S1x8192 ![] bcast_S_S1x8192),
    TRef.binary (.of main_v1) main_call0.v0 main_call0.v1 (cmpi .slt),
    TRef.nullary main_call0.c_0 (constantI S_ 32 8192#32),
    TRef.unary main_call0.c_0 main_call0.v2 (broadcastInDim S1x8192 ![] bcast_S_S1x8192),
    TRef.binary (.of main_v1) main_call0.v2 main_call0.v3 addi,
    TRef.ternary main_call0.v1 main_call0.v3 (.of main_v1) main_call0.call0.v0 select,
    TRef.unary main_call0.call0.v0 main_call0.v5 (broadcastInDim S1x8192x1 ![0, 1] bcast_S1x8192_S1x8192x1_0_1),
    TRef.nullary main_call0.c_1 (constantI S1 32 8191#32),
    TRef.nullary main_call0.c_2 (constantI S_ 32 0#32),
    TRef.unary main_call0.c_2 main_call0.v6 (broadcastInDim S1x8192x1 ![] bcast_S_S1x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x8192x1 ![0, 1, 2] bcast_S1x1x1_S1x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x8192x1_S1x8192_d2 h_S_),
    TRef.binary (.of main_arg1) main_call0.v5 main_call0.v13 (fun x i => Host.gather gather_S8192x1024_S1x8192x1_S1x8192x1024_2_0_n_n_0_2_11024 x i),
    TRef.unary main_call0.v12 main_call0.v14 (broadcastInDim S1x8192x1024 ![0, 1] bcast_S1x8192_S1x8192x1024_0_1),
    TRef.nullary main_call0.cst (constant S_ .f32 0x7FC00000#32),
    TRef.unary main_call0.cst main_call0.v15 (broadcastInDim S1x8192x1024 ![] bcast_S_S1x8192x1024),
    TRef.ternary main_call0.v14 main_call0.v13 main_call0.v15 main_call0.v16 select,
    nullary main_cst (constant S_ .f32 0x00000000#32),
    binary main_arg0 main_cst main_v3 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v3 main_v4 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v5 (broadcastInDim S4x8192x1 ![] bcast_S_S4x8192x1 : (⟨S_, .f32⟩ : BufTy).Contents (Elt F) → (⟨S4x8192x1, .f32⟩ : BufTy).Contents (Elt F)),
    binary main_v4 main_v5 main_v6 (Host.divf : (⟨S4x8192x1, .f32⟩ : BufTy).Contents (Elt F) → (⟨S4x8192x1, .f32⟩ : BufTy).Contents (Elt F) → (⟨S4x8192x1, .f32⟩ : BufTy).Contents (Elt F)),
    unary main_v6 main_v7 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v7 main_v8 (subf : (⟨S4x8192x1024, .f32⟩ : BufTy).Contents (Elt F) → (⟨S4x8192x1024, .f32⟩ : BufTy).Contents (Elt F) → (⟨S4x8192x1024, .f32⟩ : BufTy).Contents (Elt F)),
    binary main_v8 main_v8 main_v9 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v9 main_cst_1 main_v10 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v10 main_v11 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v12 (broadcastInDim S4x8192x1 ![] bcast_S_S4x8192x1 : (⟨S_, .f32⟩ : BufTy).Contents (Elt F) → (⟨S4x8192x1, .f32⟩ : BufTy).Contents (Elt F)),
    binary main_v11 main_v12 main_v13 (Host.divf : (⟨S4x8192x1, .f32⟩ : BufTy).Contents (Elt F) → (⟨S4x8192x1, .f32⟩ : BufTy).Contents (Elt F) → (⟨S4x8192x1, .f32⟩ : BufTy).Contents (Elt F)),
    unary main_v6 main_v14 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v14 main_v15 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x3727C5AC#32),
    unary main_cst_3 main_v16 (broadcastInDim S4x8192x1 ![] bcast_S_S4x8192x1 : (⟨S_, .f32⟩ : BufTy).Contents (Elt F) → (⟨S4x8192x1, .f32⟩ : BufTy).Contents (Elt F)),
    binary main_v13 main_v16 main_v17 (addf : (⟨S4x8192x1, .f32⟩ : BufTy).Contents (Elt F) → (⟨S4x8192x1, .f32⟩ : BufTy).Contents (Elt F) → (⟨S4x8192x1, .f32⟩ : BufTy).Contents (Elt F)),
    unary main_v17 main_v18 (Host.sqrt : (⟨S4x8192x1, .f32⟩ : BufTy).Contents (Elt F) → (⟨S4x8192x1, .f32⟩ : BufTy).Contents (Elt F)),
    unary main_v18 main_v19 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v15 main_v19 main_v20 (Host.divf : (⟨S4x8192x1024, .f32⟩ : BufTy).Contents (Elt F) → (⟨S4x8192x1024, .f32⟩ : BufTy).Contents (Elt F) → (⟨S4x8192x1024, .f32⟩ : BufTy).Contents (Elt F)),
    unary main_v2 main_v21 (broadcastInDim S4x8192x1024 ![0, 1, 2] bcast_S1x8192x1024_S4x8192x1024_0_1_2 : (⟨S1x8192x1024, .f32⟩ : BufTy).Contents (Elt F) → (⟨S4x8192x1024, .f32⟩ : BufTy).Contents (Elt F)),
    binary main_v20 main_v21 main_v22 (addf : (⟨S4x8192x1024, .f32⟩ : BufTy).Contents (Elt F) → (⟨S4x8192x1024, .f32⟩ : BufTy).Contents (Elt F) → (⟨S4x8192x1024, .f32⟩ : BufTy).Contents (Elt F)) ]

-- fifty binds re-associated: the rewrite under the chain recurses once per statement
set_option maxRecDepth 1024 in
/-- `@main` is that straight line: the two functions' definitions unfolded at their calls and the records at their fields,
    both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    binary_bufs_sub ..⟩

attribute [local irreducible] Host.reduce Host.gather Host.reduceAdd in
set_option maxRecDepth 8192 in
/-- The fold of the fifty operations at the result buffer is `refOut` of the two arguments' contents: the fold unrolled, each
    operation's result read at its own buffer and passed over at every other, what is left is the operations composed in
    program order — `refOut`'s own body, the typed references' transports being the identity at these literal references.
    The reductions and the gather are kept folded meanwhile: the equation never looks inside them. -/
theorem out_eq (V : Valuation τ sig (Elt F)) :
    after ops V (main_v22 : DevRef τ sig) = refOut (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of
    `@main` terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.RefValue.lean ====
/-
  The reference's composed term read at an index, on the extended reals.

  The positions `0 … 8191` are never negative, so `take`'s wrap keeps them and its range test holds everywhere; the
  gather then reads row `s` of the positional table at result row `s`. The two reductions over the last axis are sums
  over `Fin 1024`, each broadcast and pointwise operation reads its operands at the same coordinates, and what comes
  out at `(b, s, d)` is the specification's row function of row `(b, s, ·)` of the embeddings and entry `(s, d)` of the
  positional table.
-/
import proofs.«113201_g14345190768845_cont_week2b_405_11_alg».proof.Proof.RefTerm
import proofs.«113201_g14345190768845_cont_week2b_405_11_alg».proof.Proof.Spec
import Idealize.ShloMosaic.PureOps.Ideal.Laws
import Idealize.ShloMosaic.Lib.ValueIdx
import Idealize.ShloMosaic.Lib.Pipeline.Value
import Idealize.ShloMosaic.Lib.IdealHost
import Idealize.ShloMosaic.Lib.StableHlo.Predicate

noncomputable section

namespace Cert.ReferenceIdeal.Hand

open Cert.ReferenceIdeal Idealize.ShloMosaic Idealize.ShloMosaic.ValueIdx
open Cert.ReferenceIdeal.Facts₀
open scoped BigOperators

/-- Position `s` is the word `s`. -/
theorem positions_apply (s : Fin 8192) : positions (ix2 (0 : Fin 1) s) = BitVec.ofNat 32 s.val := by
  unfold positions
  rw [broadcastInDim_apply _ _ _ _ (ix1 s) (fun a => by match a with | ⟨0, _⟩ => rfl)]
  rfl

/-- The word `s` for `s < 8192` has the value `s`. -/
theorem toNat_word (s : Fin 8192) : (BitVec.ofNat 32 s.val).toNat = s.val := by
  have := s.isLt
  simp only [BitVec.toNat_ofNat]; omega

/-- The word `s` is not negative. -/
theorem word_slt_zero (s : Fin 8192) : IntOp.cmpi .slt (BitVec.ofNat 32 s.val) 0#32 = 0#1 := by
  have hs := toNat_word s
  have := s.isLt
  refine eq_zero_of_ne_one fun h => ?_
  have := (StableHlo.Predicate.slt_iff_toNat (a := BitVec.ofNat 32 s.val) (b := 0#32) (by omega) (by decide)).mp h
  simp at this

/-- The word `s` is at least `0`. -/
theorem word_sge_zero (s : Fin 8192) : IntOp.cmpi .sge (BitVec.ofNat 32 s.val) 0#32 = 1#1 := by
  have hs := toNat_word s
  have := s.isLt
  exact (StableHlo.Predicate.sge_iff_toNat (a := BitVec.ofNat 32 s.val) (b := 0#32) (by omega) (by decide)).mpr (by simp)

/-- The word `s` is at most `8191`. -/
theorem word_sle_last (s : Fin 8192) : IntOp.cmpi .sle (BitVec.ofNat 32 s.val) 8191#32 = 1#1 := by
  have hs := toNat_word s
  have := s.isLt
  exact (StableHlo.Predicate.sle_iff_toNat (a := BitVec.ofNat 32 s.val) (b := 8191#32) (by omega) (by decide)).mpr
    (by rw [hs]; show s.val ≤ 8191; omega)

/-- The wrap keeps position `s`: the gather's start index for row `s` is the word `s`. -/
theorem wrapped_apply (s : Fin 8192) : wrapped (ix3 (0 : Fin 1) s (0 : Fin 1)) = BitVec.ofNat 32 s.val := by
  unfold wrapped
  rw [broadcastInDim_apply _ _ _ _ (ix2 (0 : Fin 1) s) (fun a => by match a with | ⟨0, _⟩ => rfl | ⟨1, _⟩ => rfl)]
  rw [select_apply]
  show Scalar.select (IntOp.cmpi .slt (positions (ix2 (0 : Fin 1) s)) _) _ (positions (ix2 (0 : Fin 1) s)) = _
  rw [positions_apply]
  rw [show (broadcastInDim S1x8192 ![] bcast_S_S1x8192 (constantI S_ 32 0#32)) (ix2 (0 : Fin 1) s) = 0#32 from rfl]
  rw [word_slt_zero, select_zero]

/-- A fold over an axis of one coordinate is the operation applied once. -/
theorem fold_univ_fin_one {α : Type} (op : α → α → α) [Std.Commutative op] [Std.Associative op] (b : α) {n : Nat} (hn : n = 1)
    (f : Fin n → α) : (Finset.univ : Finset (Fin n)).fold op b f = op (f ⟨0, by omega⟩) b := by
  subst hn
  rw [Finset.univ_unique, Finset.fold_singleton]
  rfl

/-- The range test holds at every position. -/
theorem inRange_apply (s : Fin 8192) : inRange (ix2 (0 : Fin 1) s) = 1#1 := by
  have hR : S1x8192x1.Reduces [2] S1x8192 := by decide
  unfold inRange
  rw [Host.reduce_eq_fold_single IntOp.andi _ _ reducesTo_S1x8192x1_S1x8192_d2 hR h_S_]
  rw [fold_univ_fin_one IntOp.andi _ (show S1x8192x1.size 2 = 1 from rfl)]
  have hl : hR.lift (ix2 (0 : Fin 1) s) ⟨0, by decide⟩ = ix3 (0 : Fin 1) s (0 : Fin 1) := by
    funext c
    match c with
    | ⟨0, _⟩ => exact Fin.ext rfl
    | ⟨1, _⟩ => exact Fin.ext rfl
    | ⟨2, _⟩ => exact Fin.ext rfl
  rw [Function.comp_apply, hl]
  show IntOp.andi (IntOp.andi (IntOp.cmpi .sge (wrapped (ix3 (0 : Fin 1) s (0 : Fin 1))) 0#32)
    (IntOp.cmpi .sle (wrapped (ix3 (0 : Fin 1) s (0 : Fin 1))) 8191#32)) 1#1 = 1#1
  rw [wrapped_apply, word_sge_zero, word_sle_last]
  decide

/-- The gather reads, at result row `s` and column `d`, the table at row `s` (the start index `s`, already inside
    `[0, 8191]`, so the clamp keeps it) and column `d` (the one offset axis). -/
theorem gather_apply {α : Type} (pos : S8192x1024.Idx → α) (s : Fin 8192) (d : Fin 1024) :
    Host.gather gather_S8192x1024_S1x8192x1_S1x8192x1024_2_0_n_n_0_2_11024 pos wrapped (ix3 (0 : Fin 1) s d) = pos (ix2 s d) := by
  unfold Host.gather
  congr 1
  funext a
  refine Fin.ext ?_
  have hob : ∀ a : Fin 2, a ∉ gather_S8192x1024_S1x8192x1_S1x8192x1024_2_0_n_n_0_2_11024.operandBatchingDims :=
    fun _ => List.not_mem_nil
  match a with
  | ⟨0, _⟩ =>
    show GatherDims.start _ (ix3 (0 : Fin 1) s d) wrapped 0 + GatherDims.batchCoord _ (ix3 (0 : Fin 1) s d) 0
      + GatherDims.offCoord _ (ix3 (0 : Fin 1) s d) 0 = s.val
    rw [GatherDims.batchCoord_eq_zero _ _ _ (hob 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S1x8192x1_S1x8192x1024_2_0_n_n_0_2_11024.startIndexMap from
      List.mem_singleton.mpr rfl)]
    have hsi : GatherDims.siIdx gather_S8192x1024_S1x8192x1_S1x8192x1024_2_0_n_n_0_2_11024 (ix3 (0 : Fin 1) s d)
        ⟨List.idxOf (0 : Fin 2) gather_S8192x1024_S1x8192x1_S1x8192x1024_2_0_n_n_0_2_11024.startIndexMap,
          List.idxOf_lt_length_iff.2 (List.mem_singleton.mpr rfl)⟩ = ix3 (0 : Fin 1) s (0 : Fin 1) := by
      funext b
      refine Fin.ext ?_
      match b with
      | ⟨0, _⟩ => rfl
      | ⟨1, _⟩ => rfl
      | ⟨2, _⟩ => rfl
    rw [hsi, wrapped_apply, StableHlo.Predicate.toInt_ofNat_small s.val (by have := s.isLt; omega), Int.toNat_natCast]
    show min s.val (8192 - 1) = s.val
    have := s.isLt
    omega
  | ⟨1, _⟩ =>
    show GatherDims.start _ (ix3 (0 : Fin 1) s d) wrapped 1 + GatherDims.batchCoord _ (ix3 (0 : Fin 1) s d) 1
      + GatherDims.offCoord _ (ix3 (0 : Fin 1) s d) 1 = d.val
    have h1 : (1 : Fin 2) ∉ gather_S8192x1024_S1x8192x1_S1x8192x1024_2_0_n_n_0_2_11024.startIndexMap := by decide
    have hk : (1 : Fin 2) ∈ gather_S8192x1024_S1x8192x1_S1x8192x1024_2_0_n_n_0_2_11024.sKept := by decide
    rw [GatherDims.batchCoord_eq_zero _ _ _ (hob 1)]
    unfold GatherDims.start GatherDims.offCoord
    rw [dif_neg h1, dif_pos hk]
    simp only [Nat.add_zero, Nat.zero_add]
    rfl

/-- THE TAKE at `(0, s, d)`: the positional table at `(s, d)`. -/
theorem posRows_apply (pos : FVec Ideal S8192x1024 .f32) (s : Fin 8192) (d : Fin 1024) :
    posRows (F := Ideal) pos (ix3 (0 : Fin 1) s d) = pos (ix2 s d) := by
  unfold posRows
  rw [select_apply,
    broadcastInDim_apply _ bcast_S1x8192_S1x8192x1024_0_1 inRange (ix3 (0 : Fin 1) s d) (ix2 (0 : Fin 1) s)
      (fun a => by match a with | ⟨0, _⟩ => rfl | ⟨1, _⟩ => rfl),
    inRange_apply, select_one, gather_apply]

/-- The index a sum over the last axis inserts its coordinate at. -/
theorem lift_last (hR : S4x8192x1024.Reduces [2] S4x8192) (b : Fin 4) (s : Fin 8192) (k : Fin 1024) :
    hR.lift (ix2 b s) k = ix3 b s k := by
  funext c
  match c with
  | ⟨0, _⟩ => exact Fin.ext rfl
  | ⟨1, _⟩ => exact Fin.ext rfl
  | ⟨2, _⟩ => exact Fin.ext rfl

/-- A sum over the last axis from the zero pattern, at row `(b, s)`: the sum of the row's entries. -/
theorem rowSum_apply (y : FVec Ideal S4x8192x1024 .f32) (b : Fin 4) (s : Fin 8192) :
    Host.reduceAdd y (constant (F := Ideal) S_ .f32 0x00000000#32) reducesTo_S4x8192x1024_S4x8192_d2 h_S_ (ix2 b s)
      = ∑ k : Fin 1024, y (ix3 b s k) := by
  have hR : S4x8192x1024.Reduces [2] S4x8192 := by decide
  rw [hostReduceAdd_apply, Ideal.hostReduceAdd_single _ hR, constant_apply, Ideal.ofBits_zero_f32, zero_add]
  exact Finset.sum_congr rfl fun k _ => congrArg y (lift_last hR b s k)

/-- The mean column at row `(b, s)`: the row's mean. -/
theorem meanCol_apply (x : FVec Ideal S4x8192x1024 .f32) (b : Fin 4) (s : Fin 8192) :
    meanCol (F := Ideal) x (ix3 b s (0 : Fin 1)) = Cert.LayerNormSpec.mean (fun k => x (ix3 b s k)) := by
  unfold meanCol Cert.LayerNormSpec.mean
  rw [hostDivf_apply,
    broadcastInDim_apply _ bcast_S4x8192_S4x8192x1_0_1 _ (ix3 b s (0 : Fin 1)) (ix2 b s)
      (fun a => by match a with | ⟨0, _⟩ => rfl | ⟨1, _⟩ => rfl),
    broadcastInDim_scalar_apply, rowSum_apply, constant_apply]

/-- The centred embeddings at `(b, s, d)`. -/
theorem centred_apply (x : FVec Ideal S4x8192x1024 .f32) (b : Fin 4) (s : Fin 8192) (d : Fin 1024) :
    centred (F := Ideal) x (ix3 b s d) = x (ix3 b s d) - Cert.LayerNormSpec.mean (fun k => x (ix3 b s k)) := by
  unfold centred
  rw [subf_apply,
    broadcastInDim_apply _ bcast_S4x8192x1_S4x8192x1024_0_1_2 _ (ix3 b s d) (ix3 b s (0 : Fin 1))
      (fun a => by match a with | ⟨0, _⟩ => rfl | ⟨1, _⟩ => rfl | ⟨2, _⟩ => rfl),
    meanCol_apply]

/-- The variance column at row `(b, s)`: the row's variance. -/
theorem varCol_apply (x : FVec Ideal S4x8192x1024 .f32) (b : Fin 4) (s : Fin 8192) :
    varCol (F := Ideal) x (ix3 b s (0 : Fin 1)) = Cert.LayerNormSpec.var (fun k => x (ix3 b s k)) := by
  unfold varCol Cert.LayerNormSpec.var
  rw [hostDivf_apply,
    broadcastInDim_apply _ bcast_S4x8192_S4x8192x1_0_1 _ (ix3 b s (0 : Fin 1)) (ix2 b s)
      (fun a => by match a with | ⟨0, _⟩ => rfl | ⟨1, _⟩ => rfl),
    broadcastInDim_scalar_apply, rowSum_apply, constant_apply]
  congr 1
  exact Finset.sum_congr rfl fun k _ => by rw [mulf_apply, centred_apply]

/-- THE REFERENCE at `(b, s, d)`: the specification's row function, the reference's way. -/
theorem refOut_apply (x : FVec Ideal S4x8192x1024 .f32) (pos : FVec Ideal S8192x1024 .f32) (b : Fin 4) (s : Fin 8192)
    (d : Fin 1024) :
    refOut (F := Ideal) x pos (ix3 b s d) = Cert.LayerNormSpec.lnR (fun k => x (ix3 b s k)) (pos (ix2 s d)) d := by
  unfold refOut Cert.LayerNormSpec.lnR
  rw [addf_apply, hostDivf_apply, centred_apply,
    broadcastInDim_apply _ bcast_S4x8192x1_S4x8192x1024_0_1_2 _ (ix3 b s d) (ix3 b s (0 : Fin 1))
      (fun a => by match a with | ⟨0, _⟩ => rfl | ⟨1, _⟩ => rfl | ⟨2, _⟩ => rfl),
    broadcastInDim_apply _ bcast_S1x8192x1024_S4x8192x1024_0_1_2 _ (ix3 b s d) (ix3 (0 : Fin 1) s d)
      (fun a => by match a with | ⟨0, _⟩ => rfl | ⟨1, _⟩ => rfl | ⟨2, _⟩ => rfl),
    posRows_apply]
  show Ideal.div _ (Ideal.sqrt (varCol (F := Ideal) x (ix3 b s (0 : Fin 1))
    + broadcastInDim S4x8192x1 ![] bcast_S_S4x8192x1 (constant (F := Ideal) S_ .f32 0x3727C5AC#32) (ix3 b s (0 : Fin 1)))) + _ = _
  rw [varCol_apply, broadcastInDim_scalar_apply, constant_apply]

/-- The reference's composed term is the specification's result. -/
theorem refOut_eq_G (x : FVec Ideal S4x8192x1024 .f32) (pos : FVec Ideal S8192x1024 .f32) :
    refOut (F := Ideal) x pos = Cert.LayerNormSpec.G x pos := by
  funext i
  obtain ⟨b, s, d, rfl⟩ : ∃ (b : Fin 4) (s : Fin 8192) (d : Fin 1024), i = ix3 b s d := ⟨i 0, i 1, i 2, eq_ix3 i⟩
  rw [refOut_apply]
  exact (Cert.LayerNormSpec.lnK_eq_lnR _ _ _).symm

end Cert.ReferenceIdeal.Hand

end
-- ==== Proof.lean ====
/-
  The layer normalisation of the token embeddings plus the positional rows, by a kernel over blocks of 768 sequence rows
  and by the jnp reference: the five claims.

  The mathematics. Row `(b, s, ·)` of the embeddings has mean `μ = (∑ x) / 1024` and variance `σ² = (∑ (x - μ)²) / 1024`;
  the kernel writes `(x - μ) · rsqrt (σ² + ε) + pos (s, ·)`, the reference `(x - μ) / sqrt (σ² + ε) + take (pos, 0 … 8191) (s, ·)`.
  On the extended reals `σ² ≥ 0` whatever the row holds (a sum of squares over a positive number), so `σ² + ε` lies in
  `(0, ⊤]`, where the product with the reciprocal root IS the quotient by the root (Proof/Spec.lean); and the `take` at the
  positions `0 … 8191` — none negative, all in range — is the positional table itself, row for row (Proof/RefValue.lean).
  So both programs end at one function `G` of the two argument arrays, and the precondition is not used.

  The kernel's eleven blocks cover the 8192 rows with the last one overhanging by 256: its transfers are cut at the
  arrays' end. A result row depends on the same row of each staged block only, so the rows inside the arrays do not
  depend on what the staging buffers hold past them (Proof/KIValue.lean, over the body's arithmetic read at an index in
  Proof/KIPayload.lean and the body's triple in Proof/KIBody.lean); the word-level kernel's frame asks nothing of the
  contents at all (Proof/KBody.lean). The reference's run is its operations composed in order (Proof/RefRun.lean over
  Proof/RefTerm.lean).
-/
import proofs.«113201_g14345190768845_cont_week2b_405_11_alg».proof.Defs
import proofs.«113201_g14345190768845_cont_week2b_405_11_alg».proof.Proof.Gen.Kernel
import proofs.«113201_g14345190768845_cont_week2b_405_11_alg».proof.Proof.Gen.KernelIdeal
import proofs.«113201_g14345190768845_cont_week2b_405_11_alg».proof.Proof.Gen.ReferenceIdeal
import proofs.«113201_g14345190768845_cont_week2b_405_11_alg».proof.Proof.Gen.Pre_finite_inputs
import proofs.«113201_g14345190768845_cont_week2b_405_11_alg».proof.Proof.KBody
import proofs.«113201_g14345190768845_cont_week2b_405_11_alg».proof.Proof.KIValue
import proofs.«113201_g14345190768845_cont_week2b_405_11_alg».proof.Proof.RefRun
import proofs.«113201_g14345190768845_cont_week2b_405_11_alg».proof.Proof.RefValue
import Idealize.ShloMosaic.Adequacy
import Idealize.ShloMosaic.Init

noncomputable section

namespace Cert.Proof

open Idealize.ShloMosaic Idealize.SL.Sem

/-- The word-level kernel runs to the end, faults nowhere, and leaves its two arguments as they were. -/
theorem frame_k : Cert.frame_Kernel := fun m ρ _ => Cert.Kernel.Hand.frame (F := Bits) m ρ

/-- So does the idealized kernel: its run with the result dropped. -/
theorem frame_ki : Cert.frame_KernelIdeal := fun m ρ _ =>
  (θ_run Cert.KernelIdeal.defs _ _).mono (fun _ h c => (h c).2) (Cert.KernelIdeal.HandValue.run m ρ)

/-- And the idealized reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing: there is no conjunct to state. -/
theorem preserves : Cert.preserves_Kernel_KernelIdeal := trivial

/-- From memories agreeing on the arguments both idealized programs end with the result at `G` of them: the kernel by
    its blocks (`Cert.KernelIdeal.HandValue.run`), the reference by its composed term read row by row (`refOut_eq_G`). -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.Hand.refOut_eq_G _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
